-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S2048x512 : Shape := ⟨2, ![2048, 512]⟩
abbrev S2048 : Shape := ⟨1, ![2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x512 .f32) (main_arg5 : FVec F S2048x512 .f32) (main_arg6 : FVec F S2048 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S32768x512 .f32) (main_arg1 : FVec F S32768x512 .f32) (main_arg2 : FVec F S32768x512 .f32) (main_arg3 : FVec F S32768x512 .f32) (main_arg4 : FVec F S2048x512 .f32) (main_arg5 : FVec F S2048x512 .f32) (main_arg6 : FVec F S2048 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_arg6 main_v13 main_v16
-- ==== Kernel.lean ====
abbrev S32768x512 : Shape := ⟨2, ![32768, 512]⟩
abbrev S2048x512 : Shape := ⟨2, ![2048, 512]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩

abbrev nBuf : Space → Nat
  | .hbm => 13
  | .vmem => 17
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S2048x512, .f32⟩
  | .hbm, ⟨5, _⟩ => ⟨S2048x512, .f32⟩
  | .hbm, ⟨6, _⟩ => ⟨S2048, .f32⟩
  | .hbm, ⟨7, _⟩ => ⟨S2048x512, .bf16⟩
  | .hbm, ⟨8, _⟩ => ⟨S2048x512, .bf16⟩
  | .hbm, ⟨9, _⟩ => ⟨S1x2048, .f32⟩
  | .hbm, ⟨10, _⟩ => ⟨S32768x512, .f32⟩
  | .hbm, ⟨11, _⟩ => ⟨S32768x512, .f32⟩
  | .hbm, ⟨12, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | .local _ .vmem, ⟨9, _⟩ => ⟨S2048x512, .bf16⟩
  | .local _ .vmem, ⟨10, _⟩ => ⟨S1x2048, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S32768x512.size a
  hwx0_3 : ∀ i : grid0.Coords, EltTy.bits .f32 = 32 ∨ (Rect.block (s := S32768x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S32768x512.size a
  hwx0_7 : ∀ i : grid0.Coords, EltTy.bits .f32 = 32 ∨ (Rect.block (s := S32768x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S32768x512.size a
  hwx0_8 : ∀ i : grid0.Coords, EltTy.bits .f32 = 32 ∨ (Rect.block (s := S32768x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S32768x512.size a
  hwx0_9 : ∀ i : grid0.Coords, EltTy.bits .f32 = 32 ∨ (Rect.block (s := S32768x512) S512x512.size (cc0_transform_9 i) (hinb0_9 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x512 : Shape := ⟨2, ![32768, 512]⟩
abbrev S2048x512 : Shape := ⟨2, ![2048, 512]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S2048x512, .f32⟩
  | .hbm, ⟨5, _⟩ => ⟨S2048x512, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S1x2048, .f32⟩
  | .hbm, ⟨11, _⟩ => ⟨S32768x2048, .f32⟩
  | .hbm, ⟨12, _⟩ => ⟨S32768x2048, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  slices_S32768x2048_S32768x512_0_0 : S32768x2048.Slices ![0, 0] S32768x512
  slices_S32768x2048_S32768x512_0_512 : S32768x2048.Slices ![0, 512] S32768x512
  slices_S32768x2048_S32768x512_0_1024 : S32768x2048.Slices ![0, 1024] S32768x512
  slices_S32768x2048_S32768x512_0_1536 : S32768x2048.Slices ![0, 1536] S32768x512
  bcast_S_S32768x512 : S_.BroadcastsInDim S32768x512 (![] : Fin 0 → Fin S32768x512.rank)
  dot_S32768x512_S2048x512_S32768x2048_1_1_0_0_n_n_wf : DotDims.WF S32768x512 S2048x512 S32768x2048 [1] [1] [0] [0] [] []

variable [Facts₀]

def dot_S32768x512_S2048x512_S32768x2048_1_1_0_0_n_n : DotDims S32768x512 S2048x512 S32768x2048 where
  lhsContracting := [1]
  rhsContracting := [1]
  lhsNonContracting := [0]
  rhsNonContracting := [0]
  lhsBatch := []
  rhsBatch := []
  wf := dot_S32768x512_S2048x512_S32768x2048_1_1_0_0_n_n_wf

class Facts : Prop extends Facts₀ where

variable [Facts]
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.Spec.lean ====
/-
  One step of the sLSTM cell over the extended reals, entry by entry.

  For a batch row `r` and a hidden unit `q` (512 of them) the four gate pre-activations sit on ONE fused axis of
  2048 columns:
      pre r g = (∑ k, x r k · W g k) + (∑ k, h r k · R g k) + b g,
  read at g = q (the cell input z), q + 512 (the input gate i), q + 1024 (the forget gate f) and q + 1536 (the
  output gate o). The gates are  z = tanh,  i = exp,  f = exp,  o = 1 / (1 + exp (−·)),  and the new state is
      c' = f · c + i · z,      n' = f · n + i,      h' = o · (c' / n').
  The sums keep the grouping both programs compute — the two products first, the bias last — so nothing below
  needs a law of the extended reals beyond what each operation IS.

  The same cell is stated twice: over the whole arrays (32768 rows), and over one block of 512 rows with the
  bias as a one-row matrix, which is what a grid point of the kernel sees; `preRow_eq_pre` says the two agree on a row when the block's rows are
  rows of the arrays, the weights are the weights and the bias row is the bias.
-/
import Idealize.ShloMosaic.PureOps.Ideal
import Idealize.ShloMosaic.Lib.ValueIdx

noncomputable section

namespace Cert.Slstm

open Idealize.ShloMosaic Idealize.ShloMosaic.ValueIdx

/-- The gate columns of hidden unit `q` on the fused axis. -/
abbrev colZ (q : Fin 512) : Fin 2048 := ⟨q.val, by have := q.isLt; omega⟩
abbrev colI (q : Fin 512) : Fin 2048 := ⟨q.val + 512, by have := q.isLt; omega⟩
abbrev colF (q : Fin 512) : Fin 2048 := ⟨q.val + 1024, by have := q.isLt; omega⟩
abbrev colO (q : Fin 512) : Fin 2048 := ⟨q.val + 1536, by have := q.isLt; omega⟩

/-! ## The cell from its pre-activations -/

/-- The new cell state from a row's pre-activations `P` (a function of the fused column) and the old state's entry. -/
def cOf (P : Fin 2048 → EReal) (c : EReal) (q : Fin 512) : EReal :=
  Ideal.exp (P (colF q)) * c + Ideal.exp (P (colI q)) * Ideal.tanh (P (colZ q))

/-- The new normalizer. -/
def nOf (P : Fin 2048 → EReal) (n : EReal) (q : Fin 512) : EReal :=
  Ideal.exp (P (colF q)) * n + Ideal.exp (P (colI q))

/-- The new hidden state: the output gate times the normalized cell state. -/
def hOf (P : Fin 2048 → EReal) (c n : EReal) (q : Fin 512) : EReal :=
  Ideal.logistic (P (colO q)) * Ideal.div (cOf P c q) (nOf P n q)

/-! ## Over R rows -/

section Rows
variable {R : Nat}

/-- Row `r`'s pre-activation at fused column `g`, the bias a vector. -/
def pre (x h : (⟨2, ![R, 512]⟩ : Shape).Idx → EReal) (W U : (⟨2, ![2048, 512]⟩ : Shape).Idx → EReal)
    (b : (⟨1, ![2048]⟩ : Shape).Idx → EReal) (r : Fin R) (g : Fin 2048) : EReal :=
  ((∑ k : Fin 512, x (ix2 r k) * W (ix2 g k)) + (∑ k : Fin 512, h (ix2 r k) * U (ix2 g k))) + b (ix1 g)

/-- The same with the bias a one-row matrix. -/
def preRow (x h : (⟨2, ![R, 512]⟩ : Shape).Idx → EReal) (W U : (⟨2, ![2048, 512]⟩ : Shape).Idx → EReal)
    (b : (⟨2, ![1, 2048]⟩ : Shape).Idx → EReal) (r : Fin R) (g : Fin 2048) : EReal :=
  ((∑ k : Fin 512, x (ix2 r k) * W (ix2 g k)) + (∑ k : Fin 512, h (ix2 r k) * U (ix2 g k))) + b (ix2 0 g)

/-- A block's pre-activations are the arrays': row `p` of the block is row `r` of the arrays, the weights are the same
    matrices, and the one-row bias holds the bias vector. -/
theorem preRow_eq_pre {B : Nat} (xb hb : (⟨2, ![R, 512]⟩ : Shape).Idx → EReal) (Wb Ub : (⟨2, ![2048, 512]⟩ : Shape).Idx → EReal)
    (bb : (⟨2, ![1, 2048]⟩ : Shape).Idx → EReal) (x h : (⟨2, ![B, 512]⟩ : Shape).Idx → EReal)
    (W U : (⟨2, ![2048, 512]⟩ : Shape).Idx → EReal) (b : (⟨1, ![2048]⟩ : Shape).Idx → EReal) (p : Fin R) (r : Fin B)
    (hx : ∀ k, xb (ix2 p k) = x (ix2 r k)) (hh : ∀ k, hb (ix2 p k) = h (ix2 r k))
    (hW : ∀ g k, Wb (ix2 g k) = W (ix2 g k)) (hU : ∀ g k, Ub (ix2 g k) = U (ix2 g k))
    (hbias : ∀ g, bb (ix2 0 g) = b (ix1 g)) :
    preRow xb hb Wb Ub bb p = pre x h W U b r := by
  funext g
  unfold preRow pre
  simp only [hx, hh, hW, hU, hbias]

end Rows

/-- The three cell functions depend only on the values handed to them. -/
theorem cOf_congr {P P' : Fin 2048 → EReal} {c c' : EReal} {q q' : Fin 512} (hP : P = P') (hc : c = c') (hq : q = q') :
    cOf P c q = cOf P' c' q' := by subst hP hc hq; rfl
theorem nOf_congr {P P' : Fin 2048 → EReal} {n n' : EReal} {q q' : Fin 512} (hP : P = P') (hn : n = n') (hq : q = q') :
    nOf P n q = nOf P' n' q' := by subst hP hn hq; rfl
theorem hOf_congr {P P' : Fin 2048 → EReal} {c c' n n' : EReal} {q q' : Fin 512} (hP : P = P') (hc : c = c') (hn : n = n')
    (hq : q = q') : hOf P c n q = hOf P' c' n' q' := by subst hP hc hn hq; rfl

/-! ## The three result arrays -/

abbrev Rows : Shape := ⟨2, ![32768, 512]⟩
abbrev Wts : Shape := ⟨2, ![2048, 512]⟩
abbrev Bias : Shape := ⟨1, ![2048]⟩

/-- The new hidden state, as one function of the seven argument arrays. -/
def outH (x h c n : Rows.Idx → EReal) (W U : Wts.Idx → EReal) (b : Bias.Idx → EReal) : Rows.Idx → EReal :=
  fun i => hOf (pre x h W U b (i 0)) (c i) (n i) (i 1)

/-- The new cell state. -/
def outC (x h c : Rows.Idx → EReal) (W U : Wts.Idx → EReal) (b : Bias.Idx → EReal) : Rows.Idx → EReal :=
  fun i => cOf (pre x h W U b (i 0)) (c i) (i 1)

/-- The new normalizer. -/
def outN (x h n : Rows.Idx → EReal) (W U : Wts.Idx → EReal) (b : Bias.Idx → EReal) : Rows.Idx → EReal :=
  fun i => nOf (pre x h W U b (i 0)) (n i) (i 1)

end Cert.Slstm

end
-- ==== Proof.KerCell.lean ====
/-
  One grid point of the kernel, entry by entry, is the cell of Spec.lean over that point's 512 rows.

  The body forms the fused pre-activations of its block as two matrix products into a zero accumulator, each
  contracting the trailing axis of the activations against the trailing axis of the (untransposed) weights, so
  entry (p, g) is a sum over the 512 contracted positions of row p times weight row g; the narrowing of the
  operands to sixteen bits is the identity on the extended reals. It adds the two products, then the bias row
  broadcast down the block, and cuts the fused axis into the four gates. What each output block holds, as a
  function of the loaded blocks with the pre-activations kept whole, is the generated value leg's; read at an
  entry it is the cell.
-/
import proofs.«414237_j5403068858721_3_alg».proof.Proof.Gen.KernelIdeal.Value
import proofs.«414237_j5403068858721_3_alg».proof.Proof.LibDotT
import proofs.«414237_j5403068858721_3_alg».proof.Proof.Spec

noncomputable section

namespace Cert.Slstm.Ker

open Idealize.ShloMosaic Idealize.ShloMosaic.ValueIdx Cert.KernelIdeal Cert.KernelIdeal.Gen Cert.Slstm

variable (P0 P1 : FVec Ideal S512x512 .f32) (P2 P3 : FVec Ideal S2048x512 .bf16) (P4 : FVec Ideal S1x2048 .f32)
  (P5 P6 : FVec Ideal S512x512 .f32)

/-- The block's fused pre-activation at row `p` and fused column `g`. -/
theorem pay1_apply (p : Fin 512) (g : Fin 2048) :
    k0_pay1 (F := Ideal) P0 P1 P2 P3 P4 (ix2 p g) = preRow P0 P1 P2 P3 P4 p g := by
  unfold k0_pay1
  rw [addf_apply, addf_apply, shapeCast_self, shapeCast_self, shapeCast_self]
  simp only [matmul]
  rw [DotT.matmul_zero_apply dot_S512x512_S2048x512_S512x2048_1_1_0_0_n_n rfl rfl rfl rfl rfl rfl rfl rfl,
    DotT.matmul_zero_apply dot_S512x512_S2048x512_S512x2048_1_1_0_0_n_n rfl rfl rfl rfl rfl rfl rfl rfl,
    broadcastTo_apply P4 broadcasts_S1x2048_S512x2048 (ix2 p g) (ix2 0 g) (fun a => by
      match a with
      | ⟨0, _⟩ => rfl
      | ⟨1, _⟩ => rfl)]
  rfl

/-- The hidden-state block at an entry: the output gate times the normalized new cell state. -/
theorem E7_apply (p q : Fin 512) :
    Value.E7 (F := Ideal) P0 P1 P2 P3 P4 P5 P6 (ix2 p q)
      = hOf (preRow P0 P1 P2 P3 P4 p) (P5 (ix2 p q)) (P6 (ix2 p q)) q := by
  have e0 : Value.ix7_0 (ix2 p q) = ix2 p (colO q) := funext fun a => Fin.ext (by
    match a with | ⟨0, _⟩ => rfl | ⟨1, _⟩ => rfl)
  have e1 : Value.ix7_1 (ix2 p q) = ix2 p (colF q) := funext fun a => Fin.ext (by
    match a with | ⟨0, _⟩ => rfl | ⟨1, _⟩ => rfl)
  have e2 : Value.ix7_2 (ix2 p q) = ix2 p q := funext fun a => Fin.ext (by
    match a with | ⟨0, _⟩ => rfl | ⟨1, _⟩ => rfl)
  have e3 : Value.ix7_3 (ix2 p q) = ix2 p (colI q) := funext fun a => Fin.ext (by
    match a with | ⟨0, _⟩ => rfl | ⟨1, _⟩ => rfl)
  have e4 : Value.ix7_4 (ix2 p q) = ix2 p (colZ q) := funext fun a => Fin.ext (by
    match a with | ⟨0, _⟩ => rfl | ⟨1, _⟩ => rfl)
  have e5 : Value.ix7_5 (ix2 p q) = ix2 p (colF q) := funext fun a => Fin.ext (by
    match a with | ⟨0, _⟩ => rfl | ⟨1, _⟩ => rfl)
  have e6 : Value.ix7_6 (ix2 p q) = ix2 p q := funext fun a => Fin.ext (by
    match a with | ⟨0, _⟩ => rfl | ⟨1, _⟩ => rfl)
  have e7 : Value.ix7_7 (ix2 p q) = ix2 p (colI q) := funext fun a => Fin.ext (by
    match a with | ⟨0, _⟩ => rfl | ⟨1, _⟩ => rfl)
  unfold Value.E7
  rw [e0, e1, e2, e3, e4, e5, e6, e7]
  simp only [pay1_apply]
  rfl

/-- The cell-state block at an entry. -/
theorem E8_apply (p q : Fin 512) :
    Value.E8 (F := Ideal) P0 P1 P2 P3 P4 P5 (ix2 p q) = cOf (preRow P0 P1 P2 P3 P4 p) (P5 (ix2 p q)) q := by
  have e0 : Value.ix8_0 (ix2 p q) = ix2 p (colF q) := funext fun a => Fin.ext (by
    match a with | ⟨0, _⟩ => rfl | ⟨1, _⟩ => rfl)
  have e1 : Value.ix8_1 (ix2 p q) = ix2 p q := funext fun a => Fin.ext (by
    match a with | ⟨0, _⟩ => rfl | ⟨1, _⟩ => rfl)
  have e2 : Value.ix8_2 (ix2 p q) = ix2 p (colI q) := funext fun a => Fin.ext (by
    match a with | ⟨0, _⟩ => rfl | ⟨1, _⟩ => rfl)
  have e3 : Value.ix8_3 (ix2 p q) = ix2 p (colZ q) := funext fun a => Fin.ext (by
    match a with | ⟨0, _⟩ => rfl | ⟨1, _⟩ => rfl)
  unfold Value.E8
  rw [e0, e1, e2, e3]
  simp only [pay1_apply]
  rfl

/-- The normalizer block at an entry. -/
theorem E9_apply (p q : Fin 512) :
    Value.E9 (F := Ideal) P0 P1 P2 P3 P4 P5 (ix2 p q) = nOf (preRow P0 P1 P2 P3 P4 p) (P5 (ix2 p q)) q := by
  have e0 : Value.ix9_0 (ix2 p q) = ix2 p (colF q) := funext fun a => Fin.ext (by
    match a with | ⟨0, _⟩ => rfl | ⟨1, _⟩ => rfl)
  have e1 : Value.ix9_1 (ix2 p q) = ix2 p q := funext fun a => Fin.ext (by
    match a with | ⟨0, _⟩ => rfl | ⟨1, _⟩ => rfl)
  have e2 : Value.ix9_2 (ix2 p q) = ix2 p (colI q) := funext fun a => Fin.ext (by
    match a with | ⟨0, _⟩ => rfl | ⟨1, _⟩ => rfl)
  unfold Value.E9
  rw [e0, e1, e2]
  simp only [pay1_apply]
  rfl

/-! ## What the body leaves in each output block -/

theorem zero_offsets : (![0, 0] : Fin 2 → Nat) = fun _ => 0 := funext fun a => by
  match a with | ⟨0, _⟩ => rfl | ⟨1, _⟩ => rfl

variable (x0 x1 x2 x3 : FVec Ideal S512x512 .f32) (x4 x5 : FVec Ideal S2048x512 .bf16) (x6 : FVec Ideal S1x2048 .f32)

/-- The hidden-state block the body stores, at an entry, from the seven input blocks (activations, old hidden, cell and
    normalizer state, the two weight matrices, the bias row). -/
theorem outH_apply (p q : Fin 512) :
    out0_7 (F := Ideal) x0 x1 x2 x3 x4 x5 x6 (ix2 p q)
      = hOf (preRow x0 x1 x4 x5 x6 p) (x2 (ix2 p q)) (x3 (ix2 p q)) q := by
  unfold out0_7
  rw [Value.canon7_eq]
  simp only [View.ld_unit_zero (S := S512x512) zero_offsets, View.ld_unit_zero (S := S2048x512) zero_offsets,
    View.ld_unit_zero (S := S1x2048) zero_offsets]
  exact E7_apply x0 x1 x4 x5 x6 x2 x3 p q

/-- The cell-state block. -/
theorem outC_apply (p q : Fin 512) :
    out0_8 (F := Ideal) x0 x1 x2 x3 x4 x5 x6 (ix2 p q) = cOf (preRow x0 x1 x4 x5 x6 p) (x2 (ix2 p q)) q := by
  unfold out0_8
  rw [Value.canon8_eq]
  simp only [View.ld_unit_zero (S := S512x512) zero_offsets, View.ld_unit_zero (S := S2048x512) zero_offsets,
    View.ld_unit_zero (S := S1x2048) zero_offsets]
  exact E8_apply x0 x1 x4 x5 x6 x2 p q

/-- The normalizer block. -/
theorem outN_apply (p q : Fin 512) :
    out0_9 (F := Ideal) x0 x1 x2 x3 x4 x5 x6 (ix2 p q) = nOf (preRow x0 x1 x4 x5 x6 p) (x3 (ix2 p q)) q := by
  unfold out0_9
  rw [Value.canon9_eq]
  simp only [View.ld_unit_zero (S := S512x512) zero_offsets, View.ld_unit_zero (S := S2048x512) zero_offsets,
    View.ld_unit_zero (S := S1x2048) zero_offsets]
  exact E9_apply x0 x1 x4 x5 x6 x3 p q

/-! The same at any index of the block. -/

theorem outH_at (y : S512x512.Idx) :
    out0_7 (F := Ideal) x0 x1 x2 x3 x4 x5 x6 y = hOf (preRow x0 x1 x4 x5 x6 (y 0)) (x2 y) (x3 y) (y 1) := by
  obtain ⟨p, q, rfl⟩ : ∃ (p q : Fin 512), y = ix2 p q := ⟨y 0, y 1, eq_ix2 y⟩
  exact outH_apply x0 x1 x2 x3 x4 x5 x6 p q

theorem outC_at (y : S512x512.Idx) :
    out0_8 (F := Ideal) x0 x1 x2 x3 x4 x5 x6 y = cOf (preRow x0 x1 x4 x5 x6 (y 0)) (x2 y) (y 1) := by
  obtain ⟨p, q, rfl⟩ : ∃ (p q : Fin 512), y = ix2 p q := ⟨y 0, y 1, eq_ix2 y⟩
  exact outC_apply x0 x1 x2 x3 x4 x5 x6 p q

theorem outN_at (y : S512x512.Idx) :
    out0_9 (F := Ideal) x0 x1 x2 x3 x4 x5 x6 y = nOf (preRow x0 x1 x4 x5 x6 (y 0)) (x3 y) (y 1) := by
  obtain ⟨p, q, rfl⟩ : ∃ (p q : Fin 512), y = ix2 p q := ⟨y 0, y 1, eq_ix2 y⟩
  exact outN_apply x0 x1 x2 x3 x4 x5 x6 p q

end Cert.Slstm.Ker

end
-- ==== Proof.KerArr.lean ====
/-
  From the grid points' blocks to the three result arrays.

  The grid has 64 points; point `t` fetches rows t · 512 … t · 512 + 511 of the activations and of the old hidden,
  cell and normalizer states, sees the two weight matrices and the bias whole at every point, and writes back the
  same rows of the three results. Before the launch the weights are narrowed to sixteen bits — the identity on the
  extended reals — and the bias vector is re-laid as a one-row matrix. So what point `t` writes back is block `t` of
  the cell of Spec.lean over the whole argument arrays; the 64 blocks tile the 32768 rows, so each result array ends
  holding that cell everywhere.
-/
import proofs.«414237_j5403068858721_3_alg».proof.Proof.Gen.KernelIdeal.Value
import proofs.«414237_j5403068858721_3_alg».proof.Proof.KerCell
import Idealize.ShloMosaic.Lib.ValueLayout
import Idealize.ShloMosaic.Lib.StableHlo.Run

set_option maxRecDepth 16384

noncomputable section

namespace Cert.Slstm.Arr

open Idealize.ShloMosaic Idealize.ShloMosaic.TcCoe Idealize.SL.Sem Idealize.ShloMosaic.ValueIdx
open Cert.KernelIdeal Cert.KernelIdeal.Gen Cert.Slstm
open Idealize.ShloMosaic.Pipeline (Dat)

variable (m : (ℓ : Loc nD τ sig) → Buf (Elt Ideal) ℓ) (ρ : Dev nD → PrngReg)

/-! ## The argument arrays, and the three results as functions of them -/

abbrev A0 (c : Dev nD) : S32768x512.Idx → EReal := m ((c : Thread nD τ).loc main_arg0)
abbrev A1 (c : Dev nD) : S32768x512.Idx → EReal := m ((c : Thread nD τ).loc main_arg1)
abbrev A2 (c : Dev nD) : S32768x512.Idx → EReal := m ((c : Thread nD τ).loc main_arg2)
abbrev A3 (c : Dev nD) : S32768x512.Idx → EReal := m ((c : Thread nD τ).loc main_arg3)
abbrev A4 (c : Dev nD) : S2048x512.Idx → EReal := m ((c : Thread nD τ).loc main_arg4)
abbrev A5 (c : Dev nD) : S2048x512.Idx → EReal := m ((c : Thread nD τ).loc main_arg5)
abbrev A6 (c : Dev nD) : S2048.Idx → EReal := m ((c : Thread nD τ).loc main_arg6)

/-- The new hidden state over the whole arguments. -/
def GH (c : Dev nD) : S32768x512.Idx → EReal := outH (A0 m c) (A1 m c) (A2 m c) (A3 m c) (A4 m c) (A5 m c) (A6 m c)
/-- The new cell state. -/
def GC (c : Dev nD) : S32768x512.Idx → EReal := outC (A0 m c) (A1 m c) (A2 m c) (A4 m c) (A5 m c) (A6 m c)
/-- The new normalizer. -/
def GN (c : Dev nD) : S32768x512.Idx → EReal := outN (A0 m c) (A1 m c) (A3 m c) (A4 m c) (A5 m c) (A6 m c)

/-! ## What the host wrote before the launch -/

/-- The first weight matrix as the region finds it: narrowed, which changes no extended real. -/
theorem V_W (c : Dev nD) : (V m c main_v0 : S2048x512.Idx → EReal) = A4 m c := by
  dsimp only [V, hostOps0]; after_results; rfl

/-- The second weight matrix. -/
theorem V_U (c : Dev nD) : (V m c main_v1 : S2048x512.Idx → EReal) = A5 m c := by
  dsimp only [V, hostOps0]; after_results; rfl

/-- The bias as a one-row matrix. -/
theorem V_b (c : Dev nD) : (V m c main_v2 : S1x2048.Idx → EReal) = shapeCast S1x2048 (A6 m c) shapeCasts_S2048_S1x2048 := by
  dsimp only [V, hostOps0]; after_results; rfl

/-! ## The index maps over the grid -/

theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-! ## The input blocks -/

/-- Point `t`'s block of argument 0 holds rows t · 512 … t · 512 + 511 of the array. -/
theorem rows_blk0 (c : Dev nD) (t : Fin cfg0.N) (y : S512x512.Idx) (i : S32768x512.Idx)
    (h0 : (i 0).val = t.val * 512 + (y 0).val) (h1 : (i 1).val = (y 1).val) :
    iblk m c 0 t y = A0 m c i := by
  obtain ⟨e00, e01, e10, e11, e20, e21, e30, e31, e40, e41, e50, e51, e60, e61, e70, e71, e80, e81, e90, e91⟩ := idx_facts t
  refine Eq.trans ?_ (congrFun (V_main_arg0 m c) i)
  show V m c main_arg0 (((cfg0.win 0).blk t).view.emb y) = V m c main_arg0 i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 512 + 1 * (y 1).val = (i 1).val; omega

/-- Point `t`'s block of argument 1 holds rows t · 512 … t · 512 + 511 of the array. -/
theorem rows_blk1 (c : Dev nD) (t : Fin cfg0.N) (y : S512x512.Idx) (i : S32768x512.Idx)
    (h0 : (i 0).val = t.val * 512 + (y 0).val) (h1 : (i 1).val = (y 1).val) :
    iblk m c 1 t y = A1 m c i := by
  obtain ⟨e00, e01, e10, e11, e20, e21, e30, e31, e40, e41, e50, e51, e60, e61, e70, e71, e80, e81, e90, e91⟩ := idx_facts t
  refine Eq.trans ?_ (congrFun (V_main_arg1 m c) i)
  show V m c main_arg1 (((cfg0.win 1).blk t).view.emb y) = V m c main_arg1 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 512 + 1 * (y 1).val = (i 1).val; omega

/-- Point `t`'s block of argument 2 holds rows t · 512 … t · 512 + 511 of the array. -/
theorem rows_blk2 (c : Dev nD) (t : Fin cfg0.N) (y : S512x512.Idx) (i : S32768x512.Idx)
    (h0 : (i 0).val = t.val * 512 + (y 0).val) (h1 : (i 1).val = (y 1).val) :
    iblk m c 2 t y = A2 m c i := by
  obtain ⟨e00, e01, e10, e11, e20, e21, e30, e31, e40, e41, e50, e51, e60, e61, e70, e71, e80, e81, e90, e91⟩ := idx_facts t
  refine Eq.trans ?_ (congrFun (V_main_arg2 m c) i)
  show V m c main_arg2 (((cfg0.win 2).blk t).view.emb y) = V m c main_arg2 i
  refine congrArg _ (funext fun a => Fin.ext ?_)
  match a with
  | ⟨0, _⟩ => show win0_2.index t (0 : Fin 2) * 512 + 1 * (y 0).val = (i 0).val; omega
  | ⟨1, _⟩ => show win0_2.index t (1 : Fin 2) * 512 + 1 * (y 1).val = (i 1).val; omega

/-- Point `t`'s block of argument 3 holds rows t · 512 … t · 512 + 511 of the array. -/
theorem rows_blk3 (c : Dev nD) (t : Fin cfg0.N) (y : S512x512.Idx) (i : S32768x512.Idx)
    (h0 : (i 0).val = t.val * 512 + (y 0).val) (h1 : (i 1).val = (y 1).val) :
    iblk m c 3 t y = A3 m c i := by
  obtain ⟨e00, e01, e10, e11, e20, e21, e30, e31, e40, e41, e50, e51, e60, e61, e70, e71, e80, e81, e90, e91⟩ := idx_facts t
  refine Eq.trans ?_ (congrFun (V_main_arg3 m c) i)
  show V m c main_arg3 (((cfg0.win 3).blk t).view.emb y) = V m c main_arg3 i
  refine congrArg _ (funext fun a => Fin.ext ?_)
  match a with
  | ⟨0, _⟩ => show win0_3.index t (0 : Fin 2) * 512 + 1 * (y 0).val = (i 0).val; omega
  | ⟨1, _⟩ => show win0_3.index t (1 : Fin 2) * 512 + 1 * (y 1).val = (i 1).val; omega

/-- Every point sees the first weight matrix whole. -/
theorem wts_blk4 (c : Dev nD) (t : Fin cfg0.N) (y : S2048x512.Idx) : iblk m c 4 t y = A4 m c y := by
  obtain ⟨e00, e01, e10, e11, e20, e21, e30, e31, e40, e41, e50, e51, e60, e61, e70, e71, e80, e81, e90, e91⟩ := idx_facts t
  rw [← V_W m c]
  show V m c main_v0 (((cfg0.win 4).blk t).view.emb y) = V m c main_v0 y
  refine congrArg _ (funext fun a => Fin.ext ?_)
  match a with
  | ⟨0, _⟩ => show win0_4.index t (0 : Fin 2) * 2048 + 1 * (y 0).val = (y 0).val; omega
  | ⟨1, _⟩ => show win0_4.index t (1 : Fin 2) * 512 + 1 * (y 1).val = (y 1).val; omega

/-- And the second. -/
theorem wts_blk5 (c : Dev nD) (t : Fin cfg0.N) (y : S2048x512.Idx) : iblk m c 5 t y = A5 m c y := by
  obtain ⟨e00, e01, e10, e11, e20, e21, e30, e31, e40, e41, e50, e51, e60, e61, e70, e71, e80, e81, e90, e91⟩ := idx_facts t
  rw [← V_U m c]
  show V m c main_v1 (((cfg0.win 5).blk t).view.emb y) = V m c main_v1 y
  refine congrArg _ (funext fun a => Fin.ext ?_)
  match a with
  | ⟨0, _⟩ => show win0_5.index t (0 : Fin 2) * 2048 + 1 * (y 0).val = (y 0).val; omega
  | ⟨1, _⟩ => show win0_5.index t (1 : Fin 2) * 512 + 1 * (y 1).val = (y 1).val; omega

/-- Every point sees the bias row whole: entry (0, g) is the bias at g. -/
theorem bias_blk6 (c : Dev nD) (t : Fin cfg0.N) (g : Fin 2048) : iblk m c 6 t (ix2 0 g) = A6 m c (ix1 g) := by
  obtain ⟨e00, e01, e10, e11, e20, e21, e30, e31, e40, e41, e50, e51, e60, e61, e70, e71, e80, e81, e90, e91⟩ := idx_facts t
  have hV : V m c main_v2 (ix2 0 g) = A6 m c (ix1 g) := by
    rw [V_b m c]; exact shapeCast_a_1a_apply (A6 m c) shapeCasts_S2048_S1x2048 0 g
  rw [← hV]
  show V m c main_v2 (((cfg0.win 6).blk t).view.emb (ix2 0 g)) = V m c main_v2 (ix2 0 g)
  refine congrArg _ (funext fun a => Fin.ext ?_)
  match a with
  | ⟨0, _⟩ => show win0_6.index t (0 : Fin 2) * 1 + 1 * 0 = 0; omega
  | ⟨1, _⟩ => show win0_6.index t (1 : Fin 2) * 2048 + 1 * g.val = g.val; omega

/-! ## What each point writes back -/

/-- The seven input blocks at point `t`, each at its literal shape. -/
abbrev B0 (c : Dev nD) (t : Fin cfg0.N) : FVec Ideal S512x512 .f32 := iblk m c 0 t
abbrev B1 (c : Dev nD) (t : Fin cfg0.N) : FVec Ideal S512x512 .f32 := iblk m c 1 t
abbrev B2 (c : Dev nD) (t : Fin cfg0.N) : FVec Ideal S512x512 .f32 := iblk m c 2 t
abbrev B3 (c : Dev nD) (t : Fin cfg0.N) : FVec Ideal S512x512 .f32 := iblk m c 3 t
abbrev B4 (c : Dev nD) (t : Fin cfg0.N) : FVec Ideal S2048x512 .bf16 := iblk m c 4 t
abbrev B5 (c : Dev nD) (t : Fin cfg0.N) : FVec Ideal S2048x512 .bf16 := iblk m c 5 t
abbrev B6 (c : Dev nD) (t : Fin cfg0.N) : FVec Ideal S1x2048 .f32 := iblk m c 6 t

/-- Entry `y` of the H block the body leaves at point `t` is the cell's H at the array index `i` under it. -/
theorem block_GH (c : Dev nD) (t : Fin cfg0.N) (y : S512x512.Idx) (i : S32768x512.Idx)
    (h0 : (i 0).val = t.val * 512 + (y 0).val) (h1 : (i 1).val = (y 1).val) :
    out0_7 (F := Ideal) (B0 m c t) (B1 m c t) (B2 m c t) (B3 m c t) (B4 m c t) (B5 m c t) (B6 m c t) y = GH m c i := by
  refine (Ker.outH_at (B0 m c t) (B1 m c t) (B2 m c t) (B3 m c t) (B4 m c t) (B5 m c t) (B6 m c t) y).trans ?_
  exact hOf_congr
    (preRow_eq_pre (B0 m c t) (B1 m c t) (B4 m c t) (B5 m c t) (B6 m c t) (A0 m c) (A1 m c) (A4 m c) (A5 m c) (A6 m c) (y 0) (i 0)
      (fun k => rows_blk0 m c t (ix2 (y 0) k) (ix2 (i 0) k) h0 rfl) (fun k => rows_blk1 m c t (ix2 (y 0) k) (ix2 (i 0) k) h0 rfl)
      (fun g k => wts_blk4 m c t (ix2 g k)) (fun g k => wts_blk5 m c t (ix2 g k)) (fun g => bias_blk6 m c t g))
    (rows_blk2 m c t y i h0 h1) (rows_blk3 m c t y i h0 h1) (Fin.ext h1.symm)

/-- What point `t` writes back to the H array is block `t` of the cell's H over the whole arguments. -/
theorem flushed_GH (c : Dev nD) (t : Fin cfg0.N) :
    (dats m 0 c).flushed 7 t = ((cfg0.win 7).blk t).view.read (Elt Ideal) (GH m c) := by
  obtain ⟨e00, e01, e10, e11, e20, e21, e30, e31, e40, e41, e50, e51, e60, e61, e70, e71, e80, e81, e90, e91⟩ := idx_facts t
  rw [Value.flushed7]
  funext j
  have hj0 : (j 0).val < 512 := (j 0).isLt
  have hj1 : (j 1).val < 512 := (j 1).isLt
  exact block_GH m c t ((cfg0.win 7).xinj (grid0.coords t) j) (((cfg0.win 7).blk t).view.emb j)
    (by show win0_7.index t (0 : Fin 2) * 512 + 1 * (j 0).val = t.val * 512 + (j 0).val; omega)
    (by show win0_7.index t (1 : Fin 2) * 512 + 1 * (j 1).val = (j 1).val; omega)

/-- Entry `y` of the C block the body leaves at point `t` is the cell's C at the array index `i` under it. -/
theorem block_GC (c : Dev nD) (t : Fin cfg0.N) (y : S512x512.Idx) (i : S32768x512.Idx)
    (h0 : (i 0).val = t.val * 512 + (y 0).val) (h1 : (i 1).val = (y 1).val) :
    out0_8 (F := Ideal) (B0 m c t) (B1 m c t) (B2 m c t) (B3 m c t) (B4 m c t) (B5 m c t) (B6 m c t) y = GC m c i := by
  refine (Ker.outC_at (B0 m c t) (B1 m c t) (B2 m c t) (B3 m c t) (B4 m c t) (B5 m c t) (B6 m c t) y).trans ?_
  exact cOf_congr
    (preRow_eq_pre (B0 m c t) (B1 m c t) (B4 m c t) (B5 m c t) (B6 m c t) (A0 m c) (A1 m c) (A4 m c) (A5 m c) (A6 m c) (y 0) (i 0)
      (fun k => rows_blk0 m c t (ix2 (y 0) k) (ix2 (i 0) k) h0 rfl) (fun k => rows_blk1 m c t (ix2 (y 0) k) (ix2 (i 0) k) h0 rfl)
      (fun g k => wts_blk4 m c t (ix2 g k)) (fun g k => wts_blk5 m c t (ix2 g k)) (fun g => bias_blk6 m c t g))
    (rows_blk2 m c t y i h0 h1) (Fin.ext h1.symm)

/-- What point `t` writes back to the C array is block `t` of the cell's C over the whole arguments. -/
theorem flushed_GC (c : Dev nD) (t : Fin cfg0.N) :
    (dats m 0 c).flushed 8 t = ((cfg0.win 8).blk t).view.read (Elt Ideal) (GC m c) := by
  obtain ⟨e00, e01, e10, e11, e20, e21, e30, e31, e40, e41, e50, e51, e60, e61, e70, e71, e80, e81, e90, e91⟩ := idx_facts t
  rw [Value.flushed8]
  funext j
  have hj0 : (j 0).val < 512 := (j 0).isLt
  have hj1 : (j 1).val < 512 := (j 1).isLt
  exact block_GC m c t ((cfg0.win 8).xinj (grid0.coords t) j) (((cfg0.win 8).blk t).view.emb j)
    (by show win0_8.index t (0 : Fin 2) * 512 + 1 * (j 0).val = t.val * 512 + (j 0).val; omega)
    (by show win0_8.index t (1 : Fin 2) * 512 + 1 * (j 1).val = (j 1).val; omega)

/-- Entry `y` of the N block the body leaves at point `t` is the cell's N at the array index `i` under it. -/
theorem block_GN (c : Dev nD) (t : Fin cfg0.N) (y : S512x512.Idx) (i : S32768x512.Idx)
    (h0 : (i 0).val = t.val * 512 + (y 0).val) (h1 : (i 1).val = (y 1).val) :
    out0_9 (F := Ideal) (B0 m c t) (B1 m c t) (B2 m c t) (B3 m c t) (B4 m c t) (B5 m c t) (B6 m c t) y = GN m c i := by
  refine (Ker.outN_at (B0 m c t) (B1 m c t) (B2 m c t) (B3 m c t) (B4 m c t) (B5 m c t) (B6 m c t) y).trans ?_
  exact nOf_congr
    (preRow_eq_pre (B0 m c t) (B1 m c t) (B4 m c t) (B5 m c t) (B6 m c t) (A0 m c) (A1 m c) (A4 m c) (A5 m c) (A6 m c) (y 0) (i 0)
      (fun k => rows_blk0 m c t (ix2 (y 0) k) (ix2 (i 0) k) h0 rfl) (fun k => rows_blk1 m c t (ix2 (y 0) k) (ix2 (i 0) k) h0 rfl)
      (fun g k => wts_blk4 m c t (ix2 g k)) (fun g k => wts_blk5 m c t (ix2 g k)) (fun g => bias_blk6 m c t g))
    (rows_blk3 m c t y i h0 h1) (Fin.ext h1.symm)

/-- What point `t` writes back to the N array is block `t` of the cell's N over the whole arguments. -/
theorem flushed_GN (c : Dev nD) (t : Fin cfg0.N) :
    (dats m 0 c).flushed 9 t = ((cfg0.win 9).blk t).view.read (Elt Ideal) (GN m c) := by
  obtain ⟨e00, e01, e10, e11, e20, e21, e30, e31, e40, e41, e50, e51, e60, e61, e70, e71, e80, e81, e90, e91⟩ := idx_facts t
  rw [Value.flushed9]
  funext j
  have hj0 : (j 0).val < 512 := (j 0).isLt
  have hj1 : (j 1).val < 512 := (j 1).isLt
  exact block_GN m c t ((cfg0.win 9).xinj (grid0.coords t) j) (((cfg0.win 9).blk t).view.emb j)
    (by show win0_9.index t (0 : Fin 2) * 512 + 1 * (j 0).val = t.val * 512 + (j 0).val; omega)
    (by show win0_9.index t (1 : Fin 2) * 512 + 1 * (j 1).val = (j 1).val; omega)

/-! ## The blocks tile the arrays -/

/-- An index is in point `t`'s block of window 7 iff each coordinate is in the block's range on its axis. -/
theorem mem_blk7 (t : Fin cfg0.N) (i : S32768x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v3_0).slice (win0_7.rect t)).set ↔ _
  rw [View.set_slice_whole, Rect.mem_set_unit]
  exact Iff.rfl

/-- Row r of the array lies in the block of point r / 512. -/
theorem cover7 (i : S32768x512.Idx) :
    ∃ t : Fin cfg0.N, (cfg0.win 7).flush t = true ∧ i ∈ ((cfg0.win 7).blk t).view.set := by
  have hi0 : (i 0).val < 32768 := (i 0).isLt
  have hi1 : (i 1).val < 512 := (i 1).isLt
  have hN : grid0.N = 64 := N_0
  have hlt : (i 0).val / 512 < cfg0.N := by show (i 0).val / 512 < grid0.N; omega
  obtain ⟨t, ht⟩ : ∃ t : Fin cfg0.N, t.val = (i 0).val / 512 := ⟨⟨_, hlt⟩, rfl⟩
  obtain ⟨e00, e01, e10, e11, e20, e21, e30, e31, e40, e41, e50, e51, e60, e61, e70, e71, e80, e81, e90, e91⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-- An index is in point `t`'s block of window 8 iff each coordinate is in the block's range on its axis. -/
theorem mem_blk8 (t : Fin cfg0.N) (i : S32768x512.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v3_1).slice (win0_8.rect t)).set ↔ _
  rw [View.set_slice_whole, Rect.mem_set_unit]
  exact Iff.rfl

/-- Row r of the array lies in the block of point r / 512. -/
theorem cover8 (i : S32768x512.Idx) :
    ∃ t : Fin cfg0.N, (cfg0.win 8).flush t = true ∧ i ∈ ((cfg0.win 8).blk t).view.set := by
  have hi0 : (i 0).val < 32768 := (i 0).isLt
  have hi1 : (i 1).val < 512 := (i 1).isLt
  have hN : grid0.N = 64 := N_0
  have hlt : (i 0).val / 512 < cfg0.N := by show (i 0).val / 512 < grid0.N; omega
  obtain ⟨t, ht⟩ : ∃ t : Fin cfg0.N, t.val = (i 0).val / 512 := ⟨⟨_, hlt⟩, rfl⟩
  obtain ⟨e00, e01, e10, e11, e20, e21, e30, e31, e40, e41, e50, e51, e60, e61, e70, e71, e80, e81, e90, e91⟩ := idx_facts t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

/-- An index is in point `t`'s block of window 9 iff each coordinate is in the block's range on its axis. -/
theorem mem_blk9 (t : Fin cfg0.N) (i : S32768x512.Idx) :
    i ∈ ((cfg0.win 9).blk t).view.set ↔ ∀ a : Fin 2, win0_9.index t a * S512x512.size a ≤ (i a).val
      ∧ (i a).val < win0_9.index t a * S512x512.size a + S512x512.size a := by
  show i ∈ ((View.whole main_v3_2).slice (win0_9.rect t)).set ↔ _
  rw [View.set_slice_whole, Rect.mem_set_unit]
  exact Iff.rfl

/-- Row r of the array lies in the block of point r / 512. -/
theorem cover9 (i : S32768x512.Idx) :
    ∃ t : Fin cfg0.N, (cfg0.win 9).flush t = true ∧ i ∈ ((cfg0.win 9).blk t).view.set := by
  have hi0 : (i 0).val < 32768 := (i 0).isLt
  have hi1 : (i 1).val < 512 := (i 1).isLt
  have hN : grid0.N = 64 := N_0
  have hlt : (i 0).val / 512 < cfg0.N := by show (i 0).val / 512 < grid0.N; omega
  obtain ⟨t, ht⟩ : ∃ t : Fin cfg0.N, t.val = (i 0).val / 512 := ⟨⟨_, hlt⟩, rfl⟩
  obtain ⟨e00, e01, e10, e11, e20, e21, e30, e31, e40, e41, e50, e51, e60, e61, e70, e71, e80, e81, e90, e91⟩ := idx_facts t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-! ## The arrays after the run -/

theorem final_GH (c : Dev nD) : (dats m 0 c).arrAt 7 cfg0.N = GH m c :=
  (dats m 0 c).arrAt_eq_of_cover 7 (GH m c) (fun t _ => flushed_GH m c t) cover7

theorem final_GC (c : Dev nD) : (dats m 0 c).arrAt 8 cfg0.N = GC m c :=
  (dats m 0 c).arrAt_eq_of_cover 8 (GC m c) (fun t _ => flushed_GC m c t) cover8

theorem final_GN (c : Dev nD) : (dats m 0 c).arrAt 9 cfg0.N = GN m c :=
  (dats m 0 c).arrAt_eq_of_cover 9 (GN m c) (fun t _ => flushed_GN m c t) cover9

/-- Every weakly fair execution of the kernel's program ends with the three result arrays at the cell of the argument
    arrays, and the arguments unchanged. -/
theorem run : θ_run defs (onTc (τ := τ) (main (F := Ideal))) ⟨m, fun _ => 0, ρ⟩ fun r => ∀ c : Dev nD,
      r.2.mem ((c : Thread nD τ).loc main_v3_0) = GH m c
      ∧ r.2.mem ((c : Thread nD τ).loc main_v3_1) = GC m c
      ∧ r.2.mem ((c : Thread nD τ).loc main_v3_2) = GN m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_GH m c), (h c).2.1.trans (final_GC m c),
      (h c).2.2.1.trans (final_GN m c), (h c).2.2.2⟩)
    (Value.run_blocks m ρ)

end Cert.Slstm.Arr

end
-- ==== Proof.RefCell.lean ====
/-
  The reference program's three results, entry by entry, are the cell of Spec.lean.

  The reference forms the fused pre-activations as two host matrix products against the rows of the weight
  matrices (each read as a sum over the 512 contracted positions), adds them, adds the bias broadcast along
  the rows, cuts the fused axis into its four gates of 512 columns, and applies tanh, exp, exp and the logistic
  function, the last spelled out as 1 / (1 + exp (−·)), which is what the logistic function IS on the
  extended reals. The literal 1 is the float 1.0.
-/
import proofs.«414237_j5403068858721_3_alg».proof.Proof.Gen.ReferenceIdeal.Read
import proofs.«414237_j5403068858721_3_alg».proof.Proof.Spec
import Idealize.ShloMosaic.PureOps.IdealRules

noncomputable section

namespace Cert.Slstm.Ref

open Idealize.ShloMosaic Idealize.ShloMosaic.ValueIdx Cert.ReferenceIdeal Cert.ReferenceIdeal.Read Cert.Slstm

variable (x0 x1 x2 x3 : (⟨S32768x512, .f32⟩ : BufTy).Contents (Elt Ideal))
  (x4 x5 : (⟨S2048x512, .f32⟩ : BufTy).Contents (Elt Ideal)) (x6 : (⟨S2048, .f32⟩ : BufTy).Contents (Elt Ideal))

/-- The float 1.0 is the extended real 1. -/
theorem one_f32 : Ideal.ofBits .f32 0x3F800000#32 = 1 := IdealRules.sign_bit.ideal_onePat .f32

/-- The fused pre-activation the reference computes, at row `r` and fused column `g`. -/
theorem pre_eq (r : Fin 32768) (g : Fin 2048) :
    val_main_v5 (F := Ideal) x0 x1 x4 x5 x6 (ix2 r g) = pre x0 x1 x4 x5 x6 r g := by
  have el0 : ∀ k, lidx_main_v0 (ix2 r g) k = ix2 r k := fun k => funext fun a => Fin.ext (by
    match a with | ⟨0, _⟩ => rfl | ⟨1, _⟩ => rfl)
  have er0 : ∀ k, ridx_main_v0 (ix2 r g) k = ix2 g k := fun k => funext fun a => Fin.ext (by
    match a with | ⟨0, _⟩ => rfl | ⟨1, _⟩ => rfl)
  have el1 : ∀ k, lidx_main_v1 (ix2 r g) k = ix2 r k := fun k => funext fun a => Fin.ext (by
    match a with | ⟨0, _⟩ => rfl | ⟨1, _⟩ => rfl)
  have er1 : ∀ k, ridx_main_v1 (ix2 r g) k = ix2 g k := fun k => funext fun a => Fin.ext (by
    match a with | ⟨0, _⟩ => rfl | ⟨1, _⟩ => rfl)
  have eb : idx_main_v3 (idx_main_v4 (ix2 r g)) = ix1 g := funext fun a => Fin.ext (by
    match a with | ⟨0, _⟩ => rfl)
  rw [val_main_v5_apply, val_main_v2_apply, val_main_v0_apply, val_main_v1_apply, val_main_v4_apply, val_main_v3_apply]
  simp only [el0, er0, el1, er1, eb]
  rfl

/-- Where each gate's slice reads the fused axis. -/
theorem colZ_eq (r : Fin 32768) (q : Fin 512) : idx_main_v6 (ix2 r q) = ix2 r (colZ q) := funext fun a => Fin.ext (by
  match a with | ⟨0, _⟩ => rfl | ⟨1, _⟩ => rfl)
theorem colI_eq (r : Fin 32768) (q : Fin 512) : idx_main_v7 (ix2 r q) = ix2 r (colI q) := funext fun a => Fin.ext (by
  match a with | ⟨0, _⟩ => rfl | ⟨1, _⟩ => exact Nat.add_comm 512 q.val)
theorem colF_eq (r : Fin 32768) (q : Fin 512) : idx_main_v8 (ix2 r q) = ix2 r (colF q) := funext fun a => Fin.ext (by
  match a with | ⟨0, _⟩ => rfl | ⟨1, _⟩ => exact Nat.add_comm 1024 q.val)
theorem colO_eq (r : Fin 32768) (q : Fin 512) : idx_main_v9 (ix2 r q) = ix2 r (colO q) := funext fun a => Fin.ext (by
  match a with | ⟨0, _⟩ => rfl | ⟨1, _⟩ => exact Nat.add_comm 1536 q.val)

/-- The reference's new cell state. -/
theorem c_eq (i : S32768x512.Idx) :
    val_main_v21 (F := Ideal) x0 x1 x2 x4 x5 x6 i = outC x0 x1 x2 x4 x5 x6 i := by
  obtain ⟨r, q, rfl⟩ : ∃ (r : Fin 32768) (q : Fin 512), i = ix2 r q := ⟨i 0, i 1, eq_ix2 i⟩
  rw [val_main_v21_apply, val_main_v19_apply, val_main_v20_apply, val_main_v12_apply, val_main_v11_apply,
    val_main_v10_apply, val_main_v8_apply, val_main_v7_apply, val_main_v6_apply, colZ_eq, colI_eq, colF_eq,
    pre_eq, pre_eq, pre_eq]
  rfl

/-- The reference's new normalizer. -/
theorem n_eq (i : S32768x512.Idx) :
    val_main_v23 (F := Ideal) x0 x1 x3 x4 x5 x6 i = outN x0 x1 x3 x4 x5 x6 i := by
  obtain ⟨r, q, rfl⟩ : ∃ (r : Fin 32768) (q : Fin 512), i = ix2 r q := ⟨i 0, i 1, eq_ix2 i⟩
  rw [val_main_v23_apply, val_main_v22_apply, val_main_v12_apply, val_main_v11_apply,
    val_main_v8_apply, val_main_v7_apply, colI_eq, colF_eq, pre_eq, pre_eq]
  rfl

/-- The reference's new hidden state: its spelled-out 1 / (1 + exp (−o)) is the logistic function of the output
    gate's pre-activation. -/
theorem h_eq (i : S32768x512.Idx) :
    val_main_v25 (F := Ideal) x0 x1 x2 x3 x4 x5 x6 i = outH x0 x1 x2 x3 x4 x5 x6 i := by
  have hc := c_eq x0 x1 x2 x4 x5 x6 i
  have hn := n_eq x0 x1 x3 x4 x5 x6 i
  obtain ⟨r, q, rfl⟩ : ∃ (r : Fin 32768) (q : Fin 512), i = ix2 r q := ⟨i 0, i 1, eq_ix2 i⟩
  rw [val_main_v25_apply, val_main_v24_apply, hc, hn, val_main_v18_apply, val_main_v17_apply, val_main_cst_0_apply,
    val_main_v16_apply, val_main_v15_apply, val_main_cst_apply, val_main_v14_apply, val_main_v13_apply,
    val_main_v9_apply, colO_eq, pre_eq]
  simp only [Ideal.ofBits_def, one_f32]
  rfl

end Cert.Slstm.Ref

end
-- ==== Proof.lean ====
/-
  One step of the sLSTM cell: a fused kernel against its plain reference, equal over the extended reals.

  Both programs take the activations x and the old hidden, cell and normalizer states h, c, n (32768 rows of 512),
  two weight matrices W, R (2048 rows of 512) and a bias b (2048), and return the new hidden state, cell state and
  normalizer. Row by row, with the four gates read off one fused axis of 2048 columns,
      pre = x Wᵀ + h Rᵀ + b,    z = tanh,  i = exp,  f = exp,  o = logistic,
      c' = f · c + i · z,       n' = f · n + i,           h' = o · (c' / n').
  The kernel works on 64 blocks of 512 rows, forms the two products on the matrix unit from operands narrowed to
  sixteen bits (no change to an extended real), and applies the logistic function as one operation; the reference
  forms the two products as host contractions over the same axis and spells the logistic function out as
  1 / (1 + exp (−·)), which is its definition on the extended reals. Both add the two products first and the bias
  last, so the two results are the same expression entry by entry, and no finiteness of the inputs is used.

  Spec.lean states the cell; RefCell.lean reads the reference's three results as it; KerCell.lean reads one grid
  point's three output blocks as it; KerArr.lean carries the blocks to the whole arrays. Here the three runs are put
  side by side.
-/
import proofs.«414237_j5403068858721_3_alg».proof.Defs
import proofs.«414237_j5403068858721_3_alg».proof.Proof.Gen.Kernel
import proofs.«414237_j5403068858721_3_alg».proof.Proof.Gen.Kernel.Skeleton
import proofs.«414237_j5403068858721_3_alg».proof.Proof.Gen.Kernel.Launch
import proofs.«414237_j5403068858721_3_alg».proof.Proof.Gen.Kernel.Points
import proofs.«414237_j5403068858721_3_alg».proof.Proof.Gen.Kernel.Frame
import proofs.«414237_j5403068858721_3_alg».proof.Proof.Gen.KernelIdeal
import proofs.«414237_j5403068858721_3_alg».proof.Proof.Gen.KernelIdeal.Skeleton
import proofs.«414237_j5403068858721_3_alg».proof.Proof.Gen.KernelIdeal.Launch
import proofs.«414237_j5403068858721_3_alg».proof.Proof.Gen.KernelIdeal.Points
import proofs.«414237_j5403068858721_3_alg».proof.Proof.Gen.KernelIdeal.Frame
import proofs.«414237_j5403068858721_3_alg».proof.Proof.Gen.ReferenceIdeal
import proofs.«414237_j5403068858721_3_alg».proof.Proof.Gen.Pre_finite_inputs
import proofs.«414237_j5403068858721_3_alg».proof.Proof.Gen.KernelIdeal.Value
import proofs.«414237_j5403068858721_3_alg».proof.Proof.Gen.ReferenceIdeal.Run
import proofs.«414237_j5403068858721_3_alg».proof.Proof.Gen.ReferenceIdeal.Read
import proofs.«414237_j5403068858721_3_alg».proof.Proof.KerArr
import proofs.«414237_j5403068858721_3_alg».proof.Proof.RefCell
import Idealize.ShloMosaic.Adequacy
import Idealize.ShloMosaic.Init

noncomputable section

namespace Cert.Proof

open Idealize.ShloMosaic Idealize.SL.Sem Cert.Slstm

/-- The kernel's program as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the seven arguments, both programs end with the new hidden state, cell state and
    normalizer of the cell over those arguments. -/
theorem algebraic : Cert.algebraic_KernelIdeal_ReferenceIdeal := by
  intro m ρ m' ρ' _ hagree
  refine ⟨fun c => Arr.GH m c, fun c => Arr.GC m c, fun c => Arr.GN m c, Arr.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [Cert.ReferenceIdeal.Read.val_main_v25_eq, a0, a1, a2, a3, a4, a5, a6]
    exact funext fun i => Ref.h_eq _ _ _ _ _ _ _ i
  · rw [Cert.ReferenceIdeal.Read.val_main_v21_eq, a0, a1, a2, a4, a5, a6]
    exact funext fun i => Ref.c_eq _ _ _ _ _ _ i
  · rw [Cert.ReferenceIdeal.Read.val_main_v23_eq, a0, a1, a3, a4, a5, a6]
    exact funext fun i => Ref.n_eq _ _ _ _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
